-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x128x128 : Shape := ⟨4, ![64, 32, 128, 128]⟩
abbrev S_ : Shape := ⟨0, ![]⟩

class Facts : Prop where
  bcast_S_S64x32x128x128 : S_.BroadcastsInDim S64x32x128x128 (![] : Fin 0 → Fin S64x32x128x128.rank)
  reducesTo_S64x32x128x128_S_d0_1_2_3 : S64x32x128x128.ReducesTo [0, 1, 2, 3] S_
  h_S_ : 0 < S_.numel

variable [Facts]

def fn {F : FTy → Type} [FloatOps F] (main_arg0 : FVec F S64x32x128x128 .f32) : IVec S_ 1 :=
  let main_v0 : FVec F S64x32x128x128 .f32 := Host.absf main_arg0
  let main_cst : FVec F S_ .f32 := constant S_ .f32 0x7F800000#32
  let main_v1 : FVec F S64x32x128x128 .f32 := broadcastInDim S64x32x128x128 ![] bcast_S_S64x32x128x128 main_cst
  let main_v2 : IVec S64x32x128x128 1 := cmpf .olt main_v0 main_v1
  let main_c : IVec S_ 1 := constantI S_ 1 1#1
  let main_v3 : IVec S_ 1 := (fun x v => Host.reduce IntOp.andi x v reducesTo_S64x32x128x128_S_d0_1_2_3 h_S_) main_v2 main_c
  main_v3
-- ==== Kernel.lean ====
abbrev S64x32x128x128 : Shape := ⟨4, ![64, 32, 128, 128]⟩
abbrev S64x32x16384 : Shape := ⟨3, ![64, 32, 16384]⟩
abbrev S16x8x4 : Shape := ⟨3, ![16, 8, 4]⟩
abbrev S4x32x16384 : Shape := ⟨3, ![4, 32, 16384]⟩
abbrev S1x8x4 : Shape := ⟨3, ![1, 8, 4]⟩
abbrev S128x16384 : Shape := ⟨2, ![128, 16384]⟩
abbrev S128x128 : Shape := ⟨2, ![128, 128]⟩
abbrev S4x32x128 : Shape := ⟨3, ![4, 32, 128]⟩
abbrev S4x32 : Shape := ⟨2, ![4, 32]⟩
abbrev S4 : Shape := ⟨1, ![4]⟩
abbrev S4x1 : Shape := ⟨2, ![4, 1]⟩
abbrev S1x4 : Shape := ⟨2, ![1, 4]⟩
abbrev S7x4 : Shape := ⟨2, ![7, 4]⟩
abbrev S8x4 : Shape := ⟨2, ![8, 4]⟩
abbrev S16x1x4 : Shape := ⟨3, ![16, 1, 4]⟩
abbrev S16x4 : Shape := ⟨2, ![16, 4]⟩
abbrev S64 : Shape := ⟨1, ![64]⟩
abbrev S_ : Shape := ⟨0, ![]⟩

abbrev nBuf : Space → Nat
  | .hbm => 10
  | .vmem => 4
  | .smem => 0
  | _ => 0

abbrev bufTy : (tb : Table) → Fin (tcTables nBuf tb) → BufTy
  | .hbm, ⟨0, _⟩ => ⟨S64x32x128x128, .f32⟩
  | .hbm, ⟨1, _⟩ => ⟨S64x32x16384, .f32⟩
  | .hbm, ⟨2, _⟩ => ⟨S16x8x4, .f32⟩
  | .hbm, ⟨3, _⟩ => ⟨S16x1x4, .f32⟩
  | .hbm, ⟨4, _⟩ => ⟨S16x4, .f32⟩
  | .hbm, ⟨5, _⟩ => ⟨S64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S4x32x16384, .f32⟩
  | .local _ .vmem, ⟨1, _⟩ => ⟨S4x32x16384, .f32⟩
  | .local _ .vmem, ⟨2, _⟩ => ⟨S1x8x4, .f32⟩
  | .local _ .vmem, ⟨3, _⟩ => ⟨S1x8x4, .f32⟩
  | _, _ => ⟨S64x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x32x128x128_S64x32x16384 : S64x32x128x128.ShapeCasts S64x32x16384
  inb_S4x32x16384_S4x32x16384_0_0_0 : ∀ a, (![0, 0, 0] : Fin 3 → Nat) a + S4x32x16384.size a ≤ S4x32x16384.size a
  h_S4x32x16384 : 0 < S4x32x16384.numel
  shapeCasts_S4x32x16384_S4x32x16384 : S4x32x16384.ShapeCasts S4x32x16384
  bitsLt_bf16_f32 : FTy.bits .bf16 < FTy.bits .f32
  shapeCasts_S4x32x16384_S128x16384 : S4x32x16384.ShapeCasts S128x16384
  iota_S128x128_d0_w32 : S128x128.Iotas .tc 32 [0]
  iota_S128x128_d1_w32 : S128x128.Iotas .tc 32 [1]
  natLt_1_32 : 1 < 32
  shapeCasts_S128x128_S4x32x128 : S128x128.ShapeCasts S4x32x128
  reduces_S4x32x128_S4x32 : S4x32x128.Reduces [2] S4x32
  reduces_S4x32_S4 : S4x32.Reduces [1] S4
  shapeCasts_S4_S4x1 : S4.ShapeCasts S4x1
  transposes_S4x1_p1_0_S1x4 : S4x1.Transposes [1, 0] S1x4
  concatenates_S1x4_S7x4_S8x4_d0 : Shape.Concatenates [S1x4, S7x4] S8x4 0
  shapeCasts_S8x4_S1x8x4 : S8x4.ShapeCasts S1x8x4
  inb_S1x8x4_S1x8x4_0_0_0 : ∀ a, (![0, 0, 0] : Fin 3 → Nat) a + S1x8x4.size a ≤ S1x8x4.size a
  h_S1x8x4 : 0 < S1x8x4.numel
  slices_S16x8x4_S16x1x4_0_0_0 : S16x8x4.Slices ![0, 0, 0] S16x1x4
  shapeCasts_S16x1x4_S16x4 : S16x1x4.ShapeCasts S16x4
  shapeCasts_S16x4_S64 : S16x4.ShapeCasts S64
  reducesTo_S64_S_d0 : S64.ReducesTo [0] S_
  h_S_ : 0 < S_.numel
  dot_S128x16384_S128x16384_S128x128_1_1_0_0_n_n_wf : DotDims.WF S128x16384 S128x16384 S128x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32x16384.size a ≤ S64x32x16384.size a
  hwx0_0 : ∀ i : grid0.Coords, EltTy.bits .f32 = 32 ∨ (Rect.block (s := S64x32x16384) S4x32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x4.size a ≤ S16x8x4.size a
  hwx0_1 : ∀ i : grid0.Coords, EltTy.bits .f32 = 32 ∨ (Rect.block (s := S16x8x4) S1x8x4.size (cc0_transform_1 i) (hinb0_1 i)).WholeWords (EltTy.packing .f32)

variable [Facts₀]

def dot_S128x16384_S128x16384_S128x128_1_1_0_0_n_n : DotDims S128x16384 S128x16384 S128x128 where
  lhsContracting := [1]
  rhsContracting := [1]
  lhsNonContracting := [0]
  rhsNonContracting := [0]
  lhsBatch := []
  rhsBatch := []
  wf := dot_S128x16384_S128x16384_S128x128_1_1_0_0_n_n_wf

abbrev win0_0 : Pipeline.Window sig grid0 :=
  Pipeline.Window.ofSpec (Memref.whole main_v0) S4x32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x32x128x128 : Shape := ⟨4, ![64, 32, 128, 128]⟩
abbrev S64x32x16384 : Shape := ⟨3, ![64, 32, 16384]⟩
abbrev S64x32x32 : Shape := ⟨3, ![64, 32, 32]⟩
abbrev S_ : Shape := ⟨0, ![]⟩
abbrev S32x32 : Shape := ⟨2, ![32, 32]⟩
abbrev S64 : Shape := ⟨1, ![64]⟩

abbrev nBuf : Space → Nat
  | .hbm => 35
  | .vmem => 0
  | .smem => 0
  | _ => 0

abbrev bufTy : (tb : Table) → Fin (tcTables nBuf tb) → BufTy
  | .hbm, ⟨0, _⟩ => ⟨S64x32x128x128, .f32⟩
  | .hbm, ⟨1, _⟩ => ⟨S64x32x128x128, .f32⟩
  | .hbm, ⟨2, _⟩ => ⟨S64x32x16384, .f32⟩
  | .hbm, ⟨3, _⟩ => ⟨S64x32x32, .f32⟩
  | .hbm, ⟨4, _⟩ => ⟨S_, .f32⟩
  | .hbm, ⟨5, _⟩ => ⟨S64x32x32, .f32⟩
  | .hbm, ⟨6, _⟩ => ⟨S64x32x32, .f32⟩
  | .hbm, ⟨7, _⟩ => ⟨S_, .f32⟩
  | .hbm, ⟨8, _⟩ => ⟨S64x32x32, .f32⟩
  | .hbm, ⟨9, _⟩ => ⟨S64x32x32, .f32⟩
  | .hbm, ⟨10, _⟩ => ⟨S_, .i1⟩
  | .hbm, ⟨11, _⟩ => ⟨S32x32, .i1⟩
  | .hbm, ⟨12, _⟩ => ⟨S32x32, .i32⟩
  | .hbm, ⟨13, _⟩ => ⟨S_, .i32⟩
  | .hbm, ⟨14, _⟩ => ⟨S32x32, .i32⟩
  | .hbm, ⟨15, _⟩ => ⟨S32x32, .i32⟩
  | .hbm, ⟨16, _⟩ => ⟨S32x32, .i32⟩
  | .hbm, ⟨17, _⟩ => ⟨S32x32, .i1⟩
  | .hbm, ⟨18, _⟩ => ⟨S_, .i1⟩
  | .hbm, ⟨19, _⟩ => ⟨S32x32, .i1⟩
  | .hbm, ⟨20, _⟩ => ⟨S32x32, .i1⟩
  | .hbm, ⟨21, _⟩ => ⟨S_, .f32⟩
  | .hbm, ⟨22, _⟩ => ⟨S_, .f32⟩
  | .hbm, ⟨23, _⟩ => ⟨S64x32x32, .i1⟩
  | .hbm, ⟨24, _⟩ => ⟨S64x32x32, .f32⟩
  | .hbm, ⟨25, _⟩ => ⟨S64x32x32, .f32⟩
  | .hbm, ⟨26, _⟩ => ⟨S_, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S64x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_call1_v0 : Ref sig .tc := ⟨.hbm, 12, rfl⟩
abbrev main_call1_c : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_c_0 : Ref sig .tc := ⟨.hbm, 18, rfl⟩
abbrev main_call1_v5 : Ref sig .tc := ⟨.hbm, 19, rfl⟩
abbrev main_v7 : Ref sig .tc := ⟨.hbm, 20, rfl⟩
abbrev main_cst_0 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩

abbrev nD : Nat := 1
abbrev τ : Topo := Topo.v7x

variable {F : FTy → Type} [FloatOps F]

class Facts₀ : Prop where
  shapeCasts_S64x32x128x128_S64x32x16384 : S64x32x128x128.ShapeCasts S64x32x16384
  bcast_S_S64x32x32 : S_.BroadcastsInDim S64x32x32 (![] : Fin 0 → Fin S64x32x32.rank)
  bcast_S_S32x32 : S_.BroadcastsInDim S32x32 (![] : Fin 0 → Fin S32x32.rank)
  bcast_S32x32_S64x32x32_1_2 : S32x32.BroadcastsInDim S64x32x32 (![1, 2] : Fin 2 → Fin S64x32x32.rank)
  reducesTo_S64x32x32_S64_d1_2 : S64x32x32.ReducesTo [1, 2] S64
  h_S_ : 0 < S_.numel
  bcast_S_S64 : S_.BroadcastsInDim S64 (![] : Fin 0 → Fin S64.rank)
  reducesTo_S64_S_d0 : S64.ReducesTo [0] S_
  dot_S64x32x16384_S64x32x16384_S64x32x32_2_2_1_1_0_0_wf : DotDims.WF S64x32x16384 S64x32x16384 S64x32x32 [2] [2] [1] [1] [0] [0]

variable [Facts₀]

def dot_S64x32x16384_S64x32x16384_S64x32x32_2_2_1_1_0_0 : DotDims S64x32x16384 S64x32x16384 S64x32x32 where
  lhsContracting := [2]
  rhsContracting := [2]
  lhsNonContracting := [1]
  rhsNonContracting := [1]
  lhsBatch := [0]
  rhsBatch := [0]
  wf := dot_S64x32x16384_S64x32x16384_S64x32x32_2_2_1_1_0_0_wf

class Facts : Prop extends Facts₀ where

variable [Facts]
-- ==== Proof.Spec.lean ====
/-
  The mathematics both programs compute, stated once over the flattened input
  `z : [64, 32, 16384] → EReal` (the argument array with its two trailing axes merged).

  For a sample `b` and two maps `m`, `n` of it, the Gram entry of the SQUARED maps is
    gram z b m n = ∑ k, (z[b,m,k])² · (z[b,n,k])²,
  the pair's hinge is `max (margin − gram) 0`, a sample's loss is the sum of the hinges over the
  strict upper triangle `m < n` divided by the number of pairs, 496. The result of either program is
  the mean of the 64 sample losses; that last step is the same host computation in both and is
  never opened.

  Two families of facts are proved here because they need no program:
  * word facts — the kernel's mask "same sample and row-in-sample < column-in-sample" on a
    128 × 128 tile that packs four samples, computed on signed 32-bit words by floor division,
    and the reference's strict-upper-triangle mask, each decided over its finite range;
  * a sum over a row of the packed tile whose entries vanish outside the row's own sample is the
    sum over that sample's 32 columns.
-/
import Idealize.ShloMosaic.PureOps.Ideal
import Idealize.ShloMosaic.PureOps.Ideal.Laws
import Idealize.ShloMosaic.Lib.ValueIdx

noncomputable section

namespace Cert.Diversity

open Idealize.ShloMosaic Idealize.ShloMosaic.ValueIdx

/-- The flattened input's shape: 64 samples, 32 maps, 128·128 positions. -/
abbrev SFlat : Shape := ⟨3, ![64, 32, 16384]⟩

/-- The margin 0.1, the zero, and the pair count 496, as the f32 words both programs carry. -/
abbrev margin : EReal := Ideal.ofBits .f32 0x3DCCCCCD#32
abbrev zeroW : EReal := Ideal.ofBits .f32 0x00000000#32
abbrev pairs : EReal := Ideal.ofBits .f32 0x43F80000#32

/-- The Gram entry of the squared maps `m`, `n` of sample `b`. -/
def gram (z : SFlat.Idx → EReal) (b : Fin 64) (m n : Fin 32) : EReal :=
  ∑ k : Fin 16384, (z (ix3 b m k) * z (ix3 b m k)) * (z (ix3 b n k) * z (ix3 b n k))

/-- The hinge of a pair: how far its Gram entry falls short of the margin, never below zero. -/
def hinge (z : SFlat.Idx → EReal) (b : Fin 64) (m n : Fin 32) : EReal :=
  max (margin - gram z b m n) zeroW

/-- The hinge on the strict upper triangle, zero elsewhere. -/
def pairTerm (z : SFlat.Idx → EReal) (b : Fin 64) (m n : Fin 32) : EReal :=
  if m.val < n.val then hinge z b m n else zeroW

/-- The sum of a sample's hinges over the pairs `m < n`. -/
def pairSum (z : SFlat.Idx → EReal) (b : Fin 64) : EReal :=
  ∑ m : Fin 32, ∑ n : Fin 32, pairTerm z b m n

/-- A sample's loss: that sum over the number of pairs. -/
def sampleLoss (z : SFlat.Idx → EReal) (b : Fin 64) : EReal :=
  Ideal.div (pairSum z b) pairs

/-- The argument array's shape, and the argument with its two trailing axes merged (same entries, row-major). -/
abbrev SArg : Shape := ⟨4, ![64, 32, 128, 128]⟩
def flatten (x : SArg.Idx → EReal) : SFlat.Idx → EReal := shapeCast SFlat x (by decide)

/-- The 64 samples' losses as a vector. -/
def lossVec (z : SFlat.Idx → EReal) : (⟨1, ![64]⟩ : Shape).Idx → EReal := fun j => sampleLoss z (j 0)

/-- The last step of both programs, never opened: the 64 losses summed from a zero start, over 64.0. -/
def meanOf (v : (⟨1, ![64]⟩ : Shape).Idx → EReal) : (⟨0, ![]⟩ : Shape).Idx → EReal :=
  Host.divf (F := Ideal) (φ := .f32)
    (Host.reduceAdd (F := Ideal) (φ := .f32) (s := ⟨1, ![64]⟩) (axes := [0]) (t := ⟨0, ![]⟩) (u := ⟨0, ![]⟩) v
      (constant (F := Ideal) ⟨0, ![]⟩ .f32 0x00000000#32))
    (constant (F := Ideal) ⟨0, ![]⟩ .f32 0x42800000#32)

/-! ## Word facts -/

/-- Floor division by 32 of a signed word as the kernel spells it: the truncated quotient, less one
    when the signs differ and the remainder is not zero. -/
def floorDiv32 (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 32#32 0#32)) (Scalar.extui (Scalar.cmpi .slt 32#32 0#32))))
      (IntOp.cmpi .ne (IntOp.remsi .vector x 32#32) 0#32))
    (IntOp.subi (IntOp.divsi .vector x 32#32) 1#32)
    (IntOp.divsi .vector x 32#32)

/-- The kernel's mask at a row word and a column word: same quotient by 32, and the row's remainder
    below the column's. -/
def tileMask (x y : BitVec 32) : BitVec 1 :=
  IntOp.andi (IntOp.cmpi .eq (floorDiv32 x) (floorDiv32 y))
    (IntOp.cmpi .slt (IntOp.subi x (IntOp.muli (floorDiv32 x) 32#32)) (IntOp.subi y (IntOp.muli (floorDiv32 y) 32#32)))

/-- On the tile's coordinates the mask says: same sample, and row-in-sample below column-in-sample. -/
theorem tileMask_spec : ∀ r c : Fin 128, tileMask (BitVec.ofNat 32 r.val) (BitVec.ofNat 32 c.val)
    = if r.val / 32 = c.val / 32 ∧ r.val % 32 < c.val % 32 then 1#1 else 0#1 := by
  decide +kernel

/-- The reference's mask at a row word and a column word: NOT (row ≥ column), the `true` splat kept
    where the comparison fails. -/
def triuMask (i j : BitVec 32) : BitVec 1 :=
  Scalar.select (IntOp.cmpi .sge (IntOp.addi i 0#32) j) 0#1 1#1

theorem triuMask_spec : ∀ i j : Fin 32, triuMask (BitVec.ofNat 32 i.val) (BitVec.ofNat 32 j.val)
    = if i.val < j.val then 1#1 else 0#1 := by
  decide +kernel

/-- A select on a decided bit is the `if`. -/
theorem select_ite {α : Type} (P : Prop) [Decidable P] (a b : α) :
    Scalar.select (if P then 1#1 else 0#1) a b = if P then a else b := by
  by_cases h : P
  · rw [if_pos h, if_pos h]; exact select_one a b
  · rw [if_neg h, if_neg h]; exact select_zero a b

/-! ## A row of the packed tile -/

/-- Column `32·g + n` of the packed tile. -/
abbrev col (g : Fin 4) (n : Fin 32) : Fin 128 := ⟨32 * g.val + n.val, by have := g.isLt; have := n.isLt; omega⟩

/-- A sum over the 128 columns whose terms vanish outside sample `g`'s 32 columns is the sum over those. -/
theorem sum_cols_of_block {M : Type*} [AddCommMonoid M] (f : Fin 128 → M) (g : Fin 4)
    (h0 : ∀ c : Fin 128, c.val / 32 ≠ g.val → f c = 0) :
    ∑ c : Fin 128, f c = ∑ n : Fin 32, f (col g n) := by
  have e : ∑ c : Fin 128, f c = ∑ p : Fin 4 × Fin 32, f (col p.1 p.2) := by
    refine (Fintype.sum_equiv (finProdFinEquiv (m := 4) (n := 32)) (fun p => f (col p.1 p.2)) f fun p => ?_).symm
    refine congrArg f (Fin.ext ?_)
    show 32 * p.1.val + p.2.val = p.2.val + 32 * p.1.val
    omega
  rw [e, Fintype.sum_prod_type]
  refine Finset.sum_eq_single g (fun a _ hag => ?_) (fun hg => absurd (Finset.mem_univ g) hg)
  refine Finset.sum_eq_zero fun n _ => h0 _ ?_
  show (32 * a.val + n.val) / 32 ≠ g.val
  have := n.isLt
  have hne : a.val ≠ g.val := fun h => hag (Fin.ext h)
  omega

end Cert.Diversity

end
-- ==== Proof.RefValue.lean ====
/-
  The reference's per-sample losses are the specification's.

  The reference squares the argument, merges its two trailing axes, takes each sample's Gram matrix by
  a batched product, keeps `max (margin − gram) 0` on the strict upper triangle (a mask built from two
  iotas), sums each sample's 32 × 32 terms in ONE reduction over both axes and divides by 496. Read index by
  index: the squared-and-merged array at an index is the merged argument's entry times itself (merging
  axes only renames indices); the batched product at (b, m, n) is the sum over the 16384 positions; the
  mask at (m, n) is the word fact `triuMask_spec`; and the reduction over two axes is, at sample `b`,
  the double sum over (m, n), by matching the indices whose first coordinate is `b` with the pairs.
-/
import proofs.«404829_j47184510714393_4_alg».proof.Proof.Gen.ReferenceIdeal.Read
import proofs.«404829_j47184510714393_4_alg».proof.Proof.Spec

noncomputable section

namespace Cert.Diversity.Ref

open Cert.ReferenceIdeal Cert.ReferenceIdeal.Gen Cert.ReferenceIdeal.Read
open Idealize.ShloMosaic Idealize.ShloMosaic.TcCoe Idealize.ShloMosaic.ValueIdx
open Cert.Diversity

/-- The argument with its two trailing axes merged. -/
abbrev flat (x : S64x32x128x128.Idx → EReal) : SFlat.Idx → EReal := flatten x

/-- Squaring commutes with merging axes: the merged square at an index is the merged entry times itself. -/
theorem sq_flat (x : (⟨S64x32x128x128, .f32⟩ : BufTy).Contents (Elt Ideal)) (i : S64x32x16384.Idx) :
    val_main_v1 (F := Ideal) x i = flat x i * flat x i := rfl

/-- The batched product at (b, m, n) is the Gram entry of the squared maps. -/
theorem gram_eq (x : (⟨S64x32x128x128, .f32⟩ : BufTy).Contents (Elt Ideal)) (b : Fin 64) (m n : Fin 32) :
    val_main_v2 (F := Ideal) x (ix3 b m n) = gram (flat x) b m n := by
  rw [val_main_v2_apply]
  unfold gram
  refine Finset.sum_congr rfl fun k _ => ?_
  have el : lidx_main_v2 (ix3 b m n) k = ix3 b m k := funext fun a => Fin.ext (by
    match a with
    | ⟨0, _⟩ => rfl
    | ⟨1, _⟩ => rfl
    | ⟨2, _⟩ => rfl)
  have er : ridx_main_v2 (ix3 b m n) k = ix3 b n k := funext fun a => Fin.ext (by
    match a with
    | ⟨0, _⟩ => rfl
    | ⟨1, _⟩ => rfl
    | ⟨2, _⟩ => rfl)
  rw [el, er, sq_flat, sq_flat]

/-- The rectified margin shortfall at (b, m, n) is the pair's hinge. -/
theorem hinge_eq (x : (⟨S64x32x128x128, .f32⟩ : BufTy).Contents (Elt Ideal)) (b : Fin 64) (m n : Fin 32) :
    val_main_v5 (F := Ideal) x (ix3 b m n) = hinge (flat x) b m n := by
  rw [val_main_v5_apply, val_main_v4_apply, val_main_v3_apply, val_main_cst_apply, val_main_call0_v0_apply,
    val_main_call0_cst_apply, gram_eq]
  rfl

/-- The triangle mask at (m, n), as the word function of the two coordinates. -/
theorem triu_eq (j : S32x32.Idx) :
    val_main_v7 (F := Ideal) j = triuMask (BitVec.ofNat 32 (j 0).val) (BitVec.ofNat 32 (j 1).val) := by
  rw [val_main_v7_apply, val_main_call1_v4_apply, val_main_call1_v2_apply, val_main_call1_v0_apply,
    val_main_call1_v1_apply, val_main_call1_c_apply, val_main_call1_v3_apply, val_main_call1_v5_apply,
    val_main_call1_c_0_apply, val_main_v6_apply, val_main_c_apply]
  rfl

/-- The masked hinge at (b, m, n) is the specification's term: the hinge when m < n, zero otherwise. -/
theorem pairTerm_eq (x : (⟨S64x32x128x128, .f32⟩ : BufTy).Contents (Elt Ideal)) (b : Fin 64) (m n : Fin 32) :
    val_main_v8 (F := Ideal) x (ix3 b m n) = pairTerm (flat x) b m n := by
  rw [val_main_v8_apply, val_main_call2_v1_apply, triu_eq, hinge_eq, val_main_call2_v2_apply, val_main_call2_v0_apply,
    val_main_cst_0_apply]
  have hm : triuMask (BitVec.ofNat 32 ((idx_main_call2_v1 (ix3 b m n)) 0).val) (BitVec.ofNat 32 ((idx_main_call2_v1 (ix3 b m n)) 1).val)
      = if m.val < n.val then 1#1 else 0#1 := triuMask_spec m n
  rw [hm, select_ite]
  rfl

/-- The indices of a [64, 32, 32] array whose first coordinate is `b` are the pairs (m, n): a sum over the former
    is the double sum over the latter. -/
theorem sum_filter_sample {M : Type*} [AddCommMonoid M] (y : S64x32x32.Idx → M) (j : S64.Idx) :
    ∑ i ∈ Finset.univ.filter (fun i : S64x32x32.Idx => reducesTo_S64x32x32_S64_d1_2.drop i = j), y i
      = ∑ m : Fin 32, ∑ n : Fin 32, y (ix3 (j 0) m n) := by
  rw [← Finset.sum_product']
  refine Finset.sum_bij' (fun i _ => ((i 1, i 2) : Fin 32 × Fin 32)) (fun p _ => ix3 (j 0) p.1 p.2) ?_ ?_ ?_ ?_ ?_
  · intro i _; exact Finset.mem_product.mpr ⟨Finset.mem_univ _, Finset.mem_univ _⟩
  · intro p _
    refine Finset.mem_filter.mpr ⟨Finset.mem_univ _, funext fun a => ?_⟩
    match a with
    | ⟨0, _⟩ => exact Fin.ext rfl
  · intro i hi
    have hj : reducesTo_S64x32x32_S64_d1_2.drop i = j := (Finset.mem_filter.mp hi).2
    have h0 : (j 0).val = (i 0).val := by rw [← hj]; rfl
    funext a
    match a with
    | ⟨0, _⟩ => exact Fin.ext h0
    | ⟨1, _⟩ => rfl
    | ⟨2, _⟩ => rfl
  · intro p _; rfl
  · intro i hi
    have hj : reducesTo_S64x32x32_S64_d1_2.drop i = j := (Finset.mem_filter.mp hi).2
    have h0 : (j 0).val = (i 0).val := by rw [← hj]; rfl
    refine congrArg y (funext fun a => ?_)
    match a with
    | ⟨0, _⟩ => exact Fin.ext h0.symm
    | ⟨1, _⟩ => rfl
    | ⟨2, _⟩ => rfl

/-- THE REFERENCE'S PER-SAMPLE LOSSES: entry `b` of the length-64 vector it averages is the specification's
    loss of sample `b` of the merged argument. -/
theorem sampleLoss_eq (x : (⟨S64x32x128x128, .f32⟩ : BufTy).Contents (Elt Ideal)) :
    val_main_v11 (F := Ideal) x = lossVec (flatten x) := by
  funext j
  show val_main_v11 (F := Ideal) x j = sampleLoss (flatten x) (j 0)
  rw [val_main_v11_apply, val_main_v10_apply, val_main_cst_2_apply]
  unfold val_main_v9
  simp only [Host.reduceAdd, Ideal.hostReduceAdd_def]
  unfold Ideal.hostReduceAdd
  rw [sum_filter_sample, val_main_cst_1_apply]
  have hsum : ∑ m : Fin 32, ∑ n : Fin 32, val_main_v8 (F := Ideal) x (ix3 (j 0) m n) = pairSum (flatten x) (j 0) :=
    Finset.sum_congr rfl fun m _ => Finset.sum_congr rfl fun n _ => pairTerm_eq x (j 0) m n
  rw [hsum]
  show Ideal.div (Ideal.ofBits .f32 0x00000000#32 + pairSum (flatten x) (j 0)) pairs = sampleLoss (flatten x) (j 0)
  rw [Ideal.ofBits_zero_f32, zero_add]
  rfl

/-- THE REFERENCE'S RESULT: the common last step applied to the specification's losses. -/
theorem result_eq (x : (⟨S64x32x128x128, .f32⟩ : BufTy).Contents (Elt Ideal)) :
    val_main_v13 (F := Ideal) x = meanOf (lossVec (flatten x)) := by
  rw [← sampleLoss_eq]
  rfl

end Cert.Diversity.Ref

end
-- ==== Proof.TileGram.lean ====
/-
  The kernel's Gram tile at an entry.

  A grid point loads four samples as a [4, 32, 16384] block, squares it (the narrowing to bf16 before the
  squaring is the identity on extended reals), views it as 128 rows of 16384 positions — row `32·g + m` is map `m`
  of the block's sample `g` — and multiplies that matrix by its own transpose into a zero accumulator. So entry
  (32·g + m, 32·g' + n) of the tile is the sum over the positions of the squares of map `m` of sample `g` times the
  squares of map `n` of sample `g'`; on the diagonal blocks (g = g') that is the Gram entry of the specification.
-/
import proofs.«404829_j47184510714393_4_alg».proof.Proof.Gen.KernelIdeal.Skeleton
import proofs.«404829_j47184510714393_4_alg».proof.Proof.Spec
import Idealize.ShloMosaic.Lib.Pipeline.Value
import Idealize.ShloMosaic.Lib.ValueIdx
import Idealize.ShloMosaic.PureOps.Ideal.Laws

noncomputable section

namespace Cert.Diversity.Tile

open Cert.KernelIdeal Cert.KernelIdeal.Gen
open Idealize.ShloMosaic Idealize.ShloMosaic.TcCoe Idealize.ShloMosaic.ValueIdx
open Cert.Diversity

/-- Row `32·g + m` of the [128, 16384] view of a [4, 32, 16384] block is map `m` of sample `g`. -/
theorem rows_apply (v : S4x32x16384.Idx → EReal) (g : Fin 4) (m : Fin 32) (k : Fin 16384) :
    shapeCast S128x16384 v shapeCasts_S4x32x16384_S128x16384 (ix2 (col g m) k) = v (ix3 g m k) :=
  shapeCast_apply v _ _ _ (by
    rw [Shape.rowMajor_val_three, Shape.rowMajor_val_two]
    show (g.val * 32 + m.val) * 16384 + k.val = (32 * g.val + m.val) * 16384 + k.val
    omega)

/-! The product's operand indices, axis by axis: the left operand is read at (output row, position), the right
    at (output column, position). -/

theorem lhs_tile_0 (i : S128x128.Idx) (q : dot_S128x16384_S128x16384_S128x128_1_1_0_0_n_n.contr.Idx) :
    (dot_S128x16384_S128x16384_S128x128_1_1_0_0_n_n.lhsIdx i q 0).val = (i 0).val := by
  unfold DotDims.lhsIdx
  rw [dif_neg (show ¬(0 : Fin S128x16384.rank) ∈ dot_S128x16384_S128x16384_S128x128_1_1_0_0_n_n.lhsBatch by decide), dif_pos (show (0 : Fin S128x16384.rank) ∈ dot_S128x16384_S128x16384_S128x128_1_1_0_0_n_n.lhsNonContracting by decide)]
  rfl
theorem lhs_tile_1 (i : S128x128.Idx) (q : dot_S128x16384_S128x16384_S128x128_1_1_0_0_n_n.contr.Idx) :
    (dot_S128x16384_S128x16384_S128x128_1_1_0_0_n_n.lhsIdx i q 1).val = (q ⟨0, by decide⟩).val :=
  dot_S128x16384_S128x16384_S128x128_1_1_0_0_n_n.lhsIdx_val_of_single rfl i q
theorem rhs_tile_0 (i : S128x128.Idx) (q : dot_S128x16384_S128x16384_S128x128_1_1_0_0_n_n.contr.Idx) :
    (dot_S128x16384_S128x16384_S128x128_1_1_0_0_n_n.rhsIdx i q 0).val = (i 1).val := by
  unfold DotDims.rhsIdx
  rw [dif_neg (show ¬(0 : Fin S128x16384.rank) ∈ dot_S128x16384_S128x16384_S128x128_1_1_0_0_n_n.rhsBatch by decide), dif_pos (show (0 : Fin S128x16384.rank) ∈ dot_S128x16384_S128x16384_S128x128_1_1_0_0_n_n.rhsNonContracting by decide)]
  rfl
theorem rhs_tile_1 (i : S128x128.Idx) (q : dot_S128x16384_S128x16384_S128x128_1_1_0_0_n_n.contr.Idx) :
    (dot_S128x16384_S128x16384_S128x128_1_1_0_0_n_n.rhsIdx i q 1).val = (q ⟨0, by decide⟩).val :=
  dot_S128x16384_S128x16384_S128x128_1_1_0_0_n_n.rhsIdx_val_of_single rfl i q

/-- The product of a [128, 16384] matrix with its own transpose, into zero, at (r, c): the sum over the
    positions of row r's entry times row c's. -/
theorem self_product_apply (w : FVec Ideal S128x16384 .bf16) (r c : Fin 128) :
    matmul dot_S128x16384_S128x16384_S128x128_1_1_0_0_n_n none w w (constant S128x128 .f32 0x00000000#32) (ix2 r c)
      = ∑ k : Fin 16384, w (ix2 r k) * w (ix2 c k) := by
  simp only [matmul]
  rw [Ideal.matmul_constant_zero_apply, ← Equiv.sum_comp (ValueIdx.contrEquiv1 dot_S128x16384_S128x16384_S128x128_1_1_0_0_n_n 16384 rfl rfl).symm]
  refine Finset.sum_congr rfl fun k _ => ?_
  have hk := ValueIdx.contrEquiv1_symm_val dot_S128x16384_S128x16384_S128x128_1_1_0_0_n_n 16384 rfl rfl k
  have el : dot_S128x16384_S128x16384_S128x128_1_1_0_0_n_n.lhsIdx (ix2 r c) ((ValueIdx.contrEquiv1 dot_S128x16384_S128x16384_S128x128_1_1_0_0_n_n 16384 rfl rfl).symm k) = ix2 r k := funext fun a => Fin.ext (by
    match a with
    | ⟨0, _⟩ => exact lhs_tile_0 _ _
    | ⟨1, _⟩ => exact (lhs_tile_1 _ _).trans hk)
  have er : dot_S128x16384_S128x16384_S128x128_1_1_0_0_n_n.rhsIdx (ix2 r c) ((ValueIdx.contrEquiv1 dot_S128x16384_S128x16384_S128x128_1_1_0_0_n_n 16384 rfl rfl).symm k) = ix2 c k := funext fun a => Fin.ext (by
    match a with
    | ⟨0, _⟩ => exact rhs_tile_0 _ _
    | ⟨1, _⟩ => exact (rhs_tile_1 _ _).trans hk)
  rw [el, er]

/-- THE GRAM TILE on a diagonal block: if sample `g` of the loaded block is sample `b` of the flattened input
    `z`, entry (32·g + m, 32·g + n) of the tile is the Gram entry of maps `m`, `n` of sample `b`. -/
theorem gram_tile (x0 : Vec Ideal S4x32x16384 .f32) (z : SFlat.Idx → EReal) (b : Fin 64) (g : Fin 4)
    (hx : ∀ (m : Fin 32) (k : Fin 16384), x0 (ix3 g m k) = z (ix3 b m k)) (m n : Fin 32) :
    k0_pay2 x0 (ix2 (col g m) (col g n)) = gram z b m n := by
  unfold k0_pay2
  rw [shapeCast_self]
  refine (self_product_apply _ (col g m) (col g n)).trans ?_
  unfold gram
  refine Finset.sum_congr rfl fun k _ => ?_
  rw [rows_apply, rows_apply]
  show (x0 (ix3 g m k) * x0 (ix3 g m k)) * (x0 (ix3 g n k) * x0 (ix3 g n k)) = _
  rw [hx m k, hx n k]

end Cert.Diversity.Tile

end
-- ==== Proof.TileLoss.lean ====
/-
  What a grid point stores, read at an index.

  From the 128 × 128 Gram tile the body keeps `max (margin − entry) 0` where the mask holds (same sample, row-in-sample
  below column-in-sample) and zero elsewhere; views the 128 rows as 4 samples × 32 maps; sums each row over its 128
  columns and then each sample over its 32 rows; divides by 496; lays the four quotients along a row, puts seven zero
  rows under it and stores the [1, 8, 4] block. So the stored block at (0, s, g) is zero for s > 0 and, for s = 0, the
  quotient by 496 of the double sum over (m, c) of the masked tile at (32·g + m, c). A row's masked entries vanish
  outside its own sample's 32 columns, and inside them the mask is m < n: the double sum is the specification's
  sum over the pairs.
-/
import proofs.«404829_j47184510714393_4_alg».proof.Proof.Gen.KernelIdeal.Skeleton
import proofs.«404829_j47184510714393_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Diversity.Tile

open Cert.KernelIdeal Cert.KernelIdeal.Gen
open Idealize.ShloMosaic Idealize.ShloMosaic.TcCoe Idealize.ShloMosaic.ValueIdx
open Cert.Diversity

/-- The tile's row and column coordinates as words. -/
abbrev rowIdx : IVec S128x128 32 := iota .tc S128x128 32 [0] iota_S128x128_d0_w32
abbrev colIdx : IVec S128x128 32 := iota .tc S128x128 32 [1] iota_S128x128_d1_w32

/-- The masked, rectified tile: the hinge of an entry where the mask holds, zero elsewhere. -/
def maskedTile (v5 : FVec Ideal S128x128 .f32) : FVec Ideal S128x128 .f32 := fun i =>
  Scalar.select (tileMask (rowIdx i) (colIdx i)) (max (margin - v5 i) zeroW) zeroW

/-- The rest of the body, from a [128, 128] tile to the stored [1, 8, 4] block: rows regrouped by sample, summed over
    columns then over rows, divided by the pair count, laid along a row over seven zero rows. -/
def packRows (T : FVec Ideal S128x128 .f32) : FVec Ideal S1x8x4 .f32 :=
  shapeCast S1x8x4
    (concatenate S8x4 0
      [⟨S1x4, transpose S1x4 [1, 0]
          (divf
            (shapeCast S4x1
              (multiReduction .add [1] S4
                (multiReduction .add [2] S4x32 (shapeCast S4x32x128 T shapeCasts_S128x128_S4x32x128) 0x00000000#32
                  reduces_S4x32x128_S4x32 (.inl rfl) rfl)
                0x00000000#32 reduces_S4x32_S4 (.inl rfl) rfl)
              shapeCasts_S4_S4x1)
            (broadcast S4x1 (Scalar.ofBits .f32 0x43F80000#32)))
          transposes_S4x1_p1_0_S1x4⟩,
       ⟨S7x4, broadcast S7x4 (Scalar.ofBits .f32 0x00000000#32)⟩]
      concatenates_S1x4_S7x4_S8x4_d0)
    shapeCasts_S8x4_S1x8x4

/-- The body's stored value is those two steps composed. -/
theorem stored_eq (v5 : FVec Ideal S128x128 .f32) :
    k0_pay1 v5 rowIdx colIdx k0_pay3 32#32 k0_pay4 k0_pay5 (Scalar.extui (Scalar.cmpi .sgt 32#32 0#32)) 0#32
      = packRows (maskedTile v5) := rfl

/-! ## The masked tile at an entry -/

theorem maskedTile_apply (v5 : FVec Ideal S128x128 .f32) (r c : Fin 128) :
    maskedTile v5 (ix2 r c)
      = if r.val / 32 = c.val / 32 ∧ r.val % 32 < c.val % 32 then max (margin - v5 (ix2 r c)) zeroW else zeroW := by
  unfold maskedTile
  have hr : rowIdx (ix2 r c) = BitVec.ofNat 32 r.val := iota_single_apply .tc S128x128 32 0 iota_S128x128_d0_w32 (ix2 r c)
  have hc : colIdx (ix2 r c) = BitVec.ofNat 32 c.val := iota_single_apply .tc S128x128 32 1 iota_S128x128_d1_w32 (ix2 r c)
  rw [hr, hc, tileMask_spec r c, select_ite]

/-- A row of the masked tile summed over its 128 columns: only its own sample's 32 columns count, and there the
    mask is "row-in-sample below column-in-sample". -/
theorem maskedTile_row_sum (v5 : FVec Ideal S128x128 .f32) (g : Fin 4) (m : Fin 32) :
    ∑ c : Fin 128, maskedTile v5 (ix2 (col g m) c)
      = ∑ n : Fin 32, if m.val < n.val then max (margin - v5 (ix2 (col g m) (col g n))) zeroW else zeroW := by
  rw [sum_cols_of_block (fun c => maskedTile v5 (ix2 (col g m) c)) g (fun c hc => by
    rw [maskedTile_apply, if_neg (fun h => hc (by
      have h1 : (col g m).val / 32 = c.val / 32 := h.1
      have hm := m.isLt
      show c.val / 32 = g.val
      have : (32 * g.val + m.val) / 32 = g.val := by omega
      rw [← h1]; exact this))]
    exact Ideal.ofBits_zero_f32)]
  refine Finset.sum_congr rfl fun n _ => ?_
  rw [maskedTile_apply]
  have hm := m.isLt
  have hn := n.isLt
  refine if_congr ?_ rfl rfl
  show (32 * g.val + m.val) / 32 = (32 * g.val + n.val) / 32 ∧ (32 * g.val + m.val) % 32 < (32 * g.val + n.val) % 32 ↔ m.val < n.val
  constructor
  · rintro ⟨-, h⟩; omega
  · intro h; constructor <;> omega

/-! ## The layout chain -/

/-- Row (g, m) of the regrouped tile at column c is entry (32·g + m, c) of the tile. -/
theorem regroup_apply (T : FVec Ideal S128x128 .f32) (g : Fin 4) (m : Fin 32) (c : Fin 128) :
    shapeCast S4x32x128 T shapeCasts_S128x128_S4x32x128 (ix3 g m c) = T (ix2 (col g m) c) :=
  shapeCast_apply T _ _ _ (by
    rw [Shape.rowMajor_val_two, Shape.rowMajor_val_three]
    show (32 * g.val + m.val) * 128 + c.val = (g.val * 32 + m.val) * 128 + c.val
    omega)

/-- The sum over columns then over rows, at sample g. -/
theorem sums_apply (T : FVec Ideal S128x128 .f32) (g : Fin 4) :
    multiReduction .add [1] S4
        (multiReduction .add [2] S4x32 (shapeCast S4x32x128 T shapeCasts_S128x128_S4x32x128) 0x00000000#32
          reduces_S4x32x128_S4x32 (.inl rfl) rfl)
        0x00000000#32 reduces_S4x32_S4 (.inl rfl) rfl (ix1 g)
      = ∑ m : Fin 32, ∑ c : Fin 128, T (ix2 (col g m) c) := by
  refine (Ideal.multiReduction_add_single _ _ reduces_S4x32_S4 _ _ (ix1 g)).trans ?_
  show ∑ m : Fin 32, _ = _
  refine Finset.sum_congr rfl fun m _ => ?_
  have e1 : reduces_S4x32_S4.lift (ix1 g) m = ix2 g m := funext fun a => Fin.ext (by
    match a with
    | ⟨0, _⟩ => rfl
    | ⟨1, _⟩ => rfl)
  rw [e1]
  refine (Ideal.multiReduction_add_single _ _ reduces_S4x32x128_S4x32 _ _ (ix2 g m)).trans ?_
  show ∑ c : Fin 128, _ = _
  refine Finset.sum_congr rfl fun c _ => ?_
  have e2 : reduces_S4x32x128_S4x32.lift (ix2 g m) c = ix3 g m c := funext fun a => Fin.ext (by
    match a with
    | ⟨0, _⟩ => rfl
    | ⟨1, _⟩ => rfl
    | ⟨2, _⟩ => rfl)
  rw [e2, regroup_apply]

/-- THE STORED BLOCK at (0, s, g): for s = 0 the quotient by the pair count of sample g's double sum over the
    tile; zero on the seven rows below. -/
theorem packRows_apply (T : FVec Ideal S128x128 .f32) (s : Fin 8) (g : Fin 4) :
    packRows T (ix3 (0 : Fin 1) s g)
      = if s.val = 0 then Ideal.div (∑ m : Fin 32, ∑ c : Fin 128, T (ix2 (col g m) c)) pairs else zeroW := by
  unfold packRows
  refine (shapeCast_ab_1ab_apply _ _ (0 : Fin 1) s g).trans ?_
  by_cases hs : s.val = 0
  · rw [if_pos hs]
    refine (concatenate_pair_apply_left (t := S8x4) (s₁ := S1x4) (s₂ := S7x4) (0 : Fin 2) _ _ concatenates_S1x4_S7x4_S8x4_d0 (ix2 s g) rfl (ix2 (0 : Fin 1) g)
      (fun b => by
        match b with
        | ⟨0, _⟩ => exact hs.symm
        | ⟨1, _⟩ => rfl)).trans ?_
    refine (transpose_ix2_apply _ transposes_S4x1_p1_0_S1x4 (0 : Fin 1) g).trans ?_
    show Ideal.div (shapeCast S4x1 _ shapeCasts_S4_S4x1 (ix2 g (0 : Fin 1))) pairs = _
    refine congrArg (fun y => Ideal.div y pairs) ?_
    refine (shapeCast_apply _ shapeCasts_S4_S4x1 (ix2 g (0 : Fin 1)) (ix1 g) (by
      rw [Shape.rowMajor_val_one, Shape.rowMajor_val_two]
      show g.val = g.val * 1 + 0
      omega)).trans ?_
    exact sums_apply T g
  · rw [if_neg hs]
    have hs8 := s.isLt
    exact concatenate_pair_apply_right (t := S8x4) (s₁ := S1x4) (s₂ := S7x4) (0 : Fin 2) _ _ concatenates_S1x4_S7x4_S8x4_d0 (ix2 s g) rfl rfl
      (ix2 (⟨s.val - 1, by omega⟩ : Fin 7) g)
      (fun b hb => by
        match b with
        | ⟨0, _⟩ => exact absurd rfl hb
        | ⟨1, _⟩ => rfl)
      (by show s.val - 1 + 1 = s.val; omega)

/-- THE STORED BLOCK of a Gram tile, at (0, s, g): sample g's loss from the tile's diagonal block, in row 0. -/
theorem stored_apply (v5 : FVec Ideal S128x128 .f32) (s : Fin 8) (g : Fin 4) :
    k0_pay1 v5 rowIdx colIdx k0_pay3 32#32 k0_pay4 k0_pay5 (Scalar.extui (Scalar.cmpi .sgt 32#32 0#32)) 0#32 (ix3 (0 : Fin 1) s g)
      = if s.val = 0 then
          Ideal.div (∑ m : Fin 32, ∑ n : Fin 32,
            if m.val < n.val then max (margin - v5 (ix2 (col g m) (col g n))) zeroW else zeroW) pairs
        else zeroW := by
  rw [stored_eq, packRows_apply]
  simp only [maskedTile_row_sum]

end Cert.Diversity.Tile

end
-- ==== Proof.KernelValue.lean ====
/-
  The kernel's run, read: the result is the common last step applied to the specification's losses.

  The region's input array is the argument with its trailing axes merged (one host line before the region). Grid
  point `t` loads samples 4t … 4t+3 and writes block `t` of a [16, 8, 4] array: row 0 of the block holds the four samples'
  losses, rows 1 … 7 are zero. The sixteen blocks tile the array, so after the run entry (t, s, g) of it is the loss of
  sample 4t + g when s = 0 and zero otherwise. The host lines after the region take row 0 of every block, flatten the
  16 × 4 losses in sample order, and apply the common last step.
-/
import proofs.«404829_j47184510714393_4_alg».proof.Proof.Gen.KernelIdeal.Frame
import proofs.«404829_j47184510714393_4_alg».proof.Proof.TileGram
import proofs.«404829_j47184510714393_4_alg».proof.Proof.TileLoss
import Idealize.ShloMosaic.Lib.Pipeline.Value
import Idealize.ShloMosaic.Lib.StableHlo.Run

set_option maxRecDepth 16384

noncomputable section

namespace Cert.Diversity.Launch

open Cert.KernelIdeal Cert.KernelIdeal.Gen
open Idealize.ShloMosaic Idealize.ShloMosaic.TcCoe Idealize.ShloMosaic.ValueIdx Idealize.SL.Sem
open Idealize.ShloMosaic.Pipeline (Dat)
open Cert.Diversity Cert.Diversity.Tile

variable (m : (ℓ : Loc nD τ sig) → Buf (Elt Ideal) ℓ) (ρ : Dev nD → PrngReg)

/-- The region's input array and a point's input block, at their literal types. -/
abbrev xarr (c : Dev nD) : SFlat.Idx → EReal := V m c main_v0
abbrev xblk (c : Dev nD) (t : Fin cfg0.N) : Vec Ideal S4x32x16384 .f32 := iblk m c 0 t

/-- The host line before the region merges the argument's trailing axes. -/
theorem xarr_eq (c : Dev nD) : xarr m c = flatten (m ((c : Thread nD τ).loc main_arg0)) := by
  show StableHlo.after hostOps0 (fun b => m (c, b)) (Proc.devRef .tc main_v0) = _
  after_results
  rfl

theorem hz3 : (![0, 0, 0] : Fin 3 → Nat) = fun _ => 0 := funext fun a => by fin_cases a <;> rfl

/-- The grid has sixteen points. -/
theorem point_lt (t : Fin cfg0.N) : t.val < 16 := lt_of_lt_of_eq t.isLt N_0

/-- Both windows move along their leading axis with the point and sit at the start of the others. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Sample `g` of point `t`'s block is sample 4t + g of the input. -/
abbrev samp (t : Fin cfg0.N) (g : Fin 4) : Fin 64 := ⟨4 * t.val + g.val, by have := point_lt t; have := g.isLt; omega⟩

theorem xblk_apply (c : Dev nD) (t : Fin cfg0.N) (g : Fin 4) (mm : Fin 32) (k : Fin 16384) :
    xblk m c t (ix3 g mm k) = xarr m c (ix3 (samp t g) mm k) := by
  obtain ⟨e0, e1, e2, -, -, -⟩ := idx_facts t
  show V m c main_v0 (((cfg0.win 0).blk t).view.emb (ix3 g mm k)) = V m c main_v0 (ix3 (samp t g) mm k)
  refine congrArg (V m c main_v0) (funext fun a => Fin.ext ?_)
  match a with
  | ⟨0, _⟩ => show win0_0.index t (0 : Fin 3) * 4 + 1 * g.val = 4 * t.val + g.val; omega
  | ⟨1, _⟩ => show win0_0.index t (1 : Fin 3) * 32 + 1 * mm.val = mm.val; omega
  | ⟨2, _⟩ => show win0_0.index t (2 : Fin 3) * 16384 + 1 * k.val = k.val; omega

/-- What the output array ends holding: the samples' losses in row 0 of each block, zero below. -/
def lossRows (z : SFlat.Idx → EReal) : S16x8x4.Idx → EReal := fun i =>
  if (i 1).val = 0 then
    sampleLoss z ⟨4 * (i 0).val + (i 2).val, by
      have h0 : (i 0).val < 16 := (i 0).isLt
      have h2 : (i 2).val < 4 := (i 2).isLt
      omega⟩
  else zeroW

/-- WHAT POINT `t` WRITES BACK is block `t` of `lossRows` of the input array. -/
theorem flushed_eq (c : Dev nD) (t : Fin cfg0.N) :
    (dats m 0 c).flushed 1 t = ((cfg0.win 1).blk t).view.read (Elt Ideal) (lossRows (xarr m c)) := by
  show (cfg0.win 1).cut (grid0.coords t) ((dats m 0 c).after 1 t) = _
  rw [after0_1]
  unfold out0_1
  rw [View.canon_unit_zero hz3]
  simp only [View.ld_unit_zero (S := S4x32x16384) hz3]
  obtain ⟨-, -, -, e0, e1, e2⟩ := idx_facts t
  funext j
  obtain ⟨u, s, g, rfl⟩ : ∃ (u : Fin 1) (s : Fin 8) (g : Fin 4), j = ix3 u s g := ⟨j 0, j 1, j 2, eq_ix3 j⟩
  obtain rfl : u = 0 := Subsingleton.elim _ _
  show k0_pay1 (k0_pay2 (xblk m c t)) rowIdx colIdx k0_pay3 32#32 k0_pay4 k0_pay5 (Scalar.extui (Scalar.cmpi .sgt 32#32 0#32)) 0#32 (ix3 (0 : Fin 1) s g)
    = lossRows (xarr m c) (((cfg0.win 1).blk t).view.emb (ix3 (0 : Fin 1) s g))
  refine (stored_apply (k0_pay2 (xblk m c t)) s g).trans ?_
  have hemb : ((cfg0.win 1).blk t).view.emb (ix3 (0 : Fin 1) s g) = ix3 (⟨t.val, point_lt t⟩ : Fin 16) s g :=
    funext fun a => Fin.ext (by
      match a with
      | ⟨0, _⟩ => show win0_1.index t (0 : Fin 3) * 1 + 1 * 0 = t.val; omega
      | ⟨1, _⟩ => show win0_1.index t (1 : Fin 3) * 8 + 1 * s.val = s.val; omega
      | ⟨2, _⟩ => show win0_1.index t (2 : Fin 3) * 4 + 1 * g.val = g.val; omega)
  rw [hemb]
  unfold lossRows
  refine if_congr Iff.rfl ?_ rfl
  show _ = sampleLoss (xarr m c) (samp t g)
  unfold sampleLoss pairSum pairTerm hinge
  refine congrArg (fun y => Ideal.div y pairs) (Finset.sum_congr rfl fun mm _ => Finset.sum_congr rfl fun n _ => ?_)
  rw [gram_tile (xblk m c t) (xarr m c) (samp t g) g (fun m' k => xblk_apply m c t g m' k) mm n]

/-- An index of the array is in point `t`'s block iff each coordinate is in the block's range on its axis. -/
theorem mem_blk (t : Fin cfg0.N) (i : S16x8x4.Idx) :
    i ∈ ((cfg0.win 1).blk t).view.set ↔ ∀ a : Fin 3, win0_1.index t a * S1x8x4.size a ≤ (i a).val ∧ (i a).val < win0_1.index t a * S1x8x4.size a + S1x8x4.size a := by
  show i ∈ ((View.whole main_v1).slice (win0_1.rect t)).set ↔ _
  rw [View.set_slice_whole, Rect.mem_set_unit]
  exact Iff.rfl

/-- The sixteen blocks tile the array: index (t, s, g) is in point `t`'s block. -/
theorem cover (i : S16x8x4.Idx) : ∃ t : Fin cfg0.N, (cfg0.win 1).flush t = true ∧ i ∈ ((cfg0.win 1).blk t).view.set := by
  have h0 : (i 0).val < 16 := (i 0).isLt
  have h1 : (i 1).val < 8 := (i 1).isLt
  have h2 : (i 2).val < 4 := (i 2).isLt
  let t : Fin cfg0.N := ⟨(i 0).val, lt_of_lt_of_eq h0 N_0.symm⟩
  obtain ⟨-, -, -, e0, e1, e2⟩ := idx_facts t
  have ht : t.val = (i 0).val := rfl
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 8 ≤ (i 1).val ∧ (i 1).val < win0_1.index t (1 : Fin 3) * 8 + 8; omega
  | ⟨2, _⟩ => show win0_1.index t (2 : Fin 3) * 4 ≤ (i 2).val ∧ (i 2).val < win0_1.index t (2 : Fin 3) * 4 + 4; omega

/-- THE OUTPUT ARRAY after the run. -/
theorem final (c : Dev nD) : (dats m 0 c).arrAt 1 cfg0.N = lossRows (xarr m c) :=
  (dats m 0 c).arrAt_eq_of_cover 1 (lossRows (xarr m c)) (fun t _ => flushed_eq m c t) cover

/-- Row 0 of every block, flattened in sample order, is the vector of the 64 losses. -/
theorem row0_flat (z : SFlat.Idx → EReal) :
    shapeCast S64 (shapeCast S16x4 (extractStridedSlice S16x1x4 ![0, 0, 0] (lossRows z) slices_S16x8x4_S16x1x4_0_0_0)
        shapeCasts_S16x1x4_S16x4) shapeCasts_S16x4_S64
      = lossVec z := by
  funext j
  obtain ⟨b, rfl⟩ : ∃ b : Fin 64, j = ix1 b := ⟨j 0, eq_ix1 j⟩
  have hb := b.isLt
  refine (shapeCast_apply _ shapeCasts_S16x4_S64 (ix1 b) (ix2 (⟨b.val / 4, by omega⟩ : Fin 16) (⟨b.val % 4, by omega⟩ : Fin 4)) (by
    rw [Shape.rowMajor_val_two, Shape.rowMajor_val_one]
    show b.val / 4 * 4 + b.val % 4 = b.val
    omega)).trans ?_
  refine (shapeCast_apply _ shapeCasts_S16x1x4_S16x4 _ (ix3 (⟨b.val / 4, by omega⟩ : Fin 16) (0 : Fin 1) (⟨b.val % 4, by omega⟩ : Fin 4)) (by
    rw [Shape.rowMajor_val_three, Shape.rowMajor_val_two]
    show (b.val / 4 * 1 + 0) * 4 + b.val % 4 = b.val / 4 * 4 + b.val % 4
    omega)).trans ?_
  refine (extractStridedSlice_apply _ (lossRows z) slices_S16x8x4_S16x1x4_0_0_0 _ (ix3 (⟨b.val / 4, by omega⟩ : Fin 16) (0 : Fin 8) (⟨b.val % 4, by omega⟩ : Fin 4)) (fun a => by
    match a with
    | ⟨0, _⟩ => show b.val / 4 = 0 + b.val / 4; omega
    | ⟨1, _⟩ => show 0 = 0 + 0; rfl
    | ⟨2, _⟩ => show b.val % 4 = 0 + b.val % 4; omega)).trans ?_
  unfold lossRows
  refine (if_pos (by rfl)).trans ?_
  show sampleLoss z _ = sampleLoss z b
  refine congrArg (sampleLoss z) (Fin.ext ?_)
  show 4 * (b.val / 4) + b.val % 4 = b.val
  omega

/-- The host lines after the region: the common last step applied to the 64 losses. -/
theorem tail_eq (c : Dev nD) :
    Pipeline.afterTail₀ cfgs (dats m) 0 (V0 m) [hostOps1] c main_v6
      = meanOf (lossVec (flatten (m ((c : Thread nD τ).loc main_arg0)))) := by
  unfold Pipeline.afterTail₀
  show StableHlo.after hostOps1 _ (Proc.devRef .tc main_v6) = _
  after_results
  rw [(Pipeline.withArrays_arr spec0 launch0.win.arr_inj c _ _ 1).trans (final m c)]
  have key : shapeCast S64 (shapeCast S16x4 (extractStridedSlice S16x1x4 ![0, 0, 0] (lossRows (xarr m c)) slices_S16x8x4_S16x1x4_0_0_0)
        shapeCasts_S16x1x4_S16x4) shapeCasts_S16x4_S64
      = lossVec (flatten (m ((c : Thread nD τ).loc main_arg0))) := by
    rw [row0_flat, xarr_eq]
  exact (show _ = meanOf (shapeCast S64 (shapeCast S16x4 (extractStridedSlice S16x1x4 ![0, 0, 0] (lossRows (xarr m c)) slices_S16x8x4_S16x1x4_0_0_0)
        shapeCasts_S16x1x4_S16x4) shapeCasts_S16x4_S64) from rfl).trans (congrArg meanOf key)

/-- THE RUN: every weakly fair execution terminates with the result at the common last step of the specification's
    losses of the merged argument, the argument unchanged. -/
theorem run : θ_run defs (onTc (τ := τ) (main (F := Ideal))) ⟨m, fun _ => 0, ρ⟩ fun r => ∀ c : Dev nD,
      r.2.mem ((c : Thread nD τ).loc main_v6) = meanOf (lossVec (flatten (m ((c : Thread nD τ).loc main_arg0))))
      ∧ r.2.mem ((c : Thread nD τ).loc main_arg0) = m ((c : Thread nD τ).loc main_arg0) :=
  (θ_run defs _ _).mono (fun r h c =>
      ⟨((h c).2 main_v6 (Pipeline.mem_restRefs_of main_v6 (by decide) (by decide))).trans (tail_eq m c),
       ((h c).2 main_arg0 (Pipeline.mem_restRefs_of main_arg0 (by decide) (by decide))).trans (W_main_arg0 m (dats m) c)⟩)
    (run_main m ρ)

end Cert.Diversity.Launch

end
-- ==== Proof.lean ====
/-
  The diversity loss of 64 samples of 32 attention maps each: for every sample the Gram matrix of the SQUARED maps,
  `max (margin − gram) 0` summed over the pairs m < n and divided by their number 496, then the mean over the samples.

  The kernel packs four samples into one 128-row matrix per grid point, multiplies it by its own transpose, and masks
  the 128 × 128 product down to the four diagonal 32 × 32 blocks' strict upper triangles; the reference takes the 64
  Gram matrices by one batched product and masks each with a strict-upper-triangle matrix. On the extended reals the
  two are one function of the argument: the kernel's narrowing to bf16 is the identity, its product into a zero
  accumulator and the reference's batched product are the same sums over the 16384 positions, a masked row's sum over
  128 columns is its sum over its own sample's 32 columns because the other terms are zero, and the order in which the
  hinges are added does not matter. No entry needs to be finite for any of this: the precondition is never opened.
  Both programs end with the same host step (the sum of the 64 losses from zero, over 64.0), which is kept closed.

  Spec.lean states the losses and the word facts about the two masks; RefValue.lean reads the reference's run at an
  index; TileGram.lean and TileLoss.lean read what a grid point computes; KernelValue.lean assembles the kernel's
  output array from its sixteen blocks and reads the host lines around the region. The three frames are the generated
  ones (the reference's is its run with the result dropped); no operation of the kernel was rewritten by the
  idealization, so that claim is trivial.
-/
import proofs.«404829_j47184510714393_4_alg».proof.Defs
import proofs.«404829_j47184510714393_4_alg».proof.Proof.Gen.Kernel
import proofs.«404829_j47184510714393_4_alg».proof.Proof.Gen.Kernel.Skeleton
import proofs.«404829_j47184510714393_4_alg».proof.Proof.Gen.Kernel.Launch
import proofs.«404829_j47184510714393_4_alg».proof.Proof.Gen.Kernel.Points
import proofs.«404829_j47184510714393_4_alg».proof.Proof.Gen.Kernel.Frame
import proofs.«404829_j47184510714393_4_alg».proof.Proof.Gen.KernelIdeal
import proofs.«404829_j47184510714393_4_alg».proof.Proof.Gen.KernelIdeal.Skeleton
import proofs.«404829_j47184510714393_4_alg».proof.Proof.Gen.KernelIdeal.Launch
import proofs.«404829_j47184510714393_4_alg».proof.Proof.Gen.KernelIdeal.Points
import proofs.«404829_j47184510714393_4_alg».proof.Proof.Gen.KernelIdeal.Frame
import proofs.«404829_j47184510714393_4_alg».proof.Proof.Gen.ReferenceIdeal
import proofs.«404829_j47184510714393_4_alg».proof.Proof.Gen.Pre_finite_inputs
import proofs.«404829_j47184510714393_4_alg».proof.Proof.Gen.ReferenceIdeal.Run
import proofs.«404829_j47184510714393_4_alg».proof.Proof.Gen.ReferenceIdeal.Read
import proofs.«404829_j47184510714393_4_alg».proof.Proof.RefValue
import proofs.«404829_j47184510714393_4_alg».proof.Proof.KernelValue
import Idealize.ShloMosaic.Adequacy
import Idealize.ShloMosaic.Init

noncomputable section

namespace Cert.Proof

open Idealize.ShloMosaic Idealize.ShloMosaic.TcCoe Idealize.SL.Sem

namespace DiversityClaims

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- Both runs end at the common last step applied to the specification's losses of the merged argument; the
    arguments agree, so the results are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Diversity.Launch.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Diversity.Ref.result_eq, hagree c]

end DiversityClaims

theorem claim : Cert.Claim := ⟨Cert.Kernel.Gen.facts, Cert.KernelIdeal.Gen.facts, Cert.ReferenceIdeal.Gen.facts, Cert.Pre_finite_inputs.Gen.facts,
  DiversityClaims.frame_k, DiversityClaims.frame_ki, DiversityClaims.frame_ri, trivial, DiversityClaims.algebraic⟩

end Cert.Proof

end
